-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S4000x128 : Shape := ⟨2, ![4000, 128]⟩
abbrev S4000x64 : Shape := ⟨2, ![4000, 64]⟩
abbrev S1600000x64 : Shape := ⟨2, ![1600000, 64]⟩
abbrev S100000x1 : Shape := ⟨2, ![100000, 1]⟩
abbrev S1x64 : Shape := ⟨2, ![1, 64]⟩
abbrev S1x1 : Shape := ⟨2, ![1, 1]⟩
abbrev S4000x1 : Shape := ⟨2, ![4000, 1]⟩
abbrev S4000 : Shape := ⟨1, ![4000]⟩

abbrev nBuf : Space → Nat
  | .hbm => 91
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x1, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S1600000x1, .f32⟩
  | .hbm, ⟨77, _⟩ => ⟨S1600000x64, .f32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S1x64, .f32⟩
  | .hbm, ⟨87, _⟩ => ⟨S1x1, .f32⟩
  | .hbm, ⟨88, _⟩ => ⟨S1x64, .f32⟩
  | .hbm, ⟨89, _⟩ => ⟨S100000x1, .f32⟩
  | .hbm, ⟨90, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S64x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S1x64, .f32⟩
  | .local _ .vmem, ⟨22, _⟩ => ⟨S1x64, .f32⟩
  | .local _ .vmem, ⟨23, _⟩ => ⟨S1x1, .f32⟩
  | .local _ .vmem, ⟨24, _⟩ => ⟨S4000x1, .f32⟩
  | .local _ .vmem, ⟨25, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S64x1_S1x64 : S64x1.ShapeCasts S1x64
  shapeCasts_S1_S1x1 : S1.ShapeCasts S1x1
  reduces_S4000x64_S4000 : S4000x64.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x1.size a ≤ S100000x1.size a
  hwx3_5 : ∀ i : grid3.Coords, EltTy.bits .f32 = 32 ∨ (Rect.block (s := S100000x1) S4000x1.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S4000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S_, .f32⟩
  | 59 => ⟨S100000, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S1600000x1, .f32⟩
  | 111 => ⟨S1600000x64, .f32⟩
  | 112 => ⟨S1600000x64, .f32⟩
  | 113 => ⟨S_, .f32⟩
  | 114 => ⟨S100000x64, .f32⟩
  | 115 => ⟨S1600000x1, .i32⟩
  | 116 => ⟨S100000x64, .f32⟩
  | 117 => ⟨S_, .f32⟩
  | 118 => ⟨S100000, .f32⟩
  | 119 => ⟨S100000, .f32⟩
  | 120 => ⟨S100000x1, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000x64, .f32⟩
  | 1 => ⟨S100000x64, .f32⟩
  | 2 => ⟨S100000x1, .f32⟩
  | 3 => ⟨S1x1, .f32⟩
  | 4 => ⟨S100000x1, .f32⟩
  | 5 => ⟨S100000x1, .f32⟩
  | 6 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call1_cst : Ref sig .tc := ⟨.hbm, 127, rfl⟩
abbrev main_call1_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  The dense stages of the two-layer graph convolution, as whole-array functions over the extended reals.

  A layer's dense work is three maps. A feature product sends node features `A` and a weight matrix `B` to the array
  whose entry `(r, c)` is the sum over `k` of `A (r, k) * B (k, c)`. The combine step sends the aggregated neighbour
  term `a`, the self-loop term `s` and a bias row `b` to `max ((a + s) + b, 0)`, entry by entry, the bias read along the
  feature axis. The head sends the same three arrays, a weight row `wl` and a one-entry bias `bl` to the column whose entry
  `r` is the sum over the features `k` of `max ((a (r, k) + s (r, k)) + b k, 0) * wl k`, plus `bl`.
-/
import Idealize.ShloMosaic.Lib.ValueIdx
import Idealize.ShloMosaic.PureOps.Ideal.Laws

noncomputable section

open scoped BigOperators

namespace Cert.Gcn

open Idealize.ShloMosaic Idealize.ShloMosaic.ValueIdx

/-- The feature product: entry `(r, c)` is the sum over `k` of `A (r, k) * B (k, c)`. -/
def rowsDot (M K N : Nat) (A : FVec Ideal ⟨2, ![M, K]⟩ .f32) (B : FVec Ideal ⟨2, ![K, N]⟩ .f32) :
    FVec Ideal ⟨2, ![M, N]⟩ .f32 :=
  fun j => ∑ k : Fin K, A (ix2 (j 0) k) * B (ix2 k (j 1))

/-- One combined entry: the aggregate plus the self-loop term, plus the bias, cut off below at zero. -/
def relu3 (a s b : EReal) : EReal := max ((a + s) + b) (0 : EReal)

/-- The combine step on `M` nodes of `N` features: `relu3` entry by entry, the bias row read at the feature. -/
def combine (M N : Nat) (a s : FVec Ideal ⟨2, ![M, N]⟩ .f32) (b : FVec Ideal ⟨2, ![1, N]⟩ .f32) :
    FVec Ideal ⟨2, ![M, N]⟩ .f32 :=
  fun j => relu3 (a j) (s j) (b (ix2 (0 : Fin 1) (j 1)))

/-- The head on `M` nodes of `N` features: the combined row against the weight row, summed over the features, plus the
    one-entry bias. -/
def headOf (M N : Nat) (a s : FVec Ideal ⟨2, ![M, N]⟩ .f32) (b wl : FVec Ideal ⟨2, ![1, N]⟩ .f32)
    (bl : FVec Ideal ⟨2, ![1, 1]⟩ .f32) : FVec Ideal ⟨2, ![M, 1]⟩ .f32 :=
  fun j => (∑ k : Fin N, relu3 (a (ix2 (j 0) k)) (s (ix2 (j 0) k)) (b (ix2 (0 : Fin 1) k)) * wl (ix2 (0 : Fin 1) k))
    + bl (ix2 (0 : Fin 1) (0 : Fin 1))

end Cert.Gcn

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«168553_j28166395527551_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.KReg0.lean ====
/-
  The feature product of layer one: its output array, after the 25 grid points, is the rows-times-matrix product of the
  two arrays it reads. Point `t` loads rows `4000 t … 4000 t + 3999` of the node features and the whole weight matrix,
  narrows both (the identity on the extended reals) and stores their product into a zero accumulator into the same rows of
  the output: entry `(p, q)` of the block is the sum over `k` of the row's entry `k` times the matrix's entry `(k, q)`.
  The 25 row blocks tile the array.
-/
import proofs.«168553_j28166395527551_1_alg».proof.Proof.Gen.KernelIdeal.Frame
import proofs.«168553_j28166395527551_1_alg».proof.Proof.Spec
import proofs.«168553_j28166395527551_1_alg».proof.Proof.LibPlainDotAny
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Hand0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The node features and the weight matrix as the region finds them, at their literal types. -/
abbrev lhsArr (c : Dev nD) : FVec Ideal S100000x128 .f32 := V c main_arg0
abbrev rhsArr (c : Dev nD) : FVec Ideal S128x64 .f32 := V c main_arg2

/-- The body's value at an index of the block: the row of the left block against the column of the right block. -/
theorem pay_apply (x0 : Vec Ideal S4000x128 .f32) (x1 : Vec Ideal S128x64 .f32) (j : S4000x64.Idx) :
    k0_pay1 x0 x1 j = ∑ k : Fin 128, x0 (ix2 (j 0) k) * x1 (ix2 k (j 1)) := by
  unfold k0_pay1
  try simp only [shapeCast_self]
  exact PlainDot.matmul_zero_apply_any 4000 128 64 none _ _ j

/-- The index maps over the grid: the row-blocked windows sit at block row `t`, block column 0; the weight matrix at
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the region finds them. -/
theorem flushed_eq (c : Dev nD) (t : Fin cfg0.N) :
    (dat0 V c).flushed 2 t = ((cfg0.win 2).blk t).view.read (Elt Ideal)
      (Cert.Gcn.rowsDot 100000 128 64 (V c main_arg0) (V c main_arg2)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x64) hz]
  obtain ⟨e0, e1, e2, e3, e4, e5⟩ := idx_facts t
  funext j
  obtain ⟨p, q, rfl⟩ : ∃ (p : Fin 4000) (q : Fin 64), j = ix2 p q := ⟨j 0, j 1, eq_ix2 j⟩
  show k0_pay1 (iblk0 V c 0 t) (iblk0 V c 1 t) (ix2 p q) = _
  refine (pay_apply (iblk0 V c 0 t) (iblk0 V c 1 t) (ix2 p q)).trans ?_
  show _ = Cert.Gcn.rowsDot 100000 128 64 (V c main_arg0) (V c main_arg2) (((cfg0.win 2).blk t).view.emb (ix2 p q))
  unfold Cert.Gcn.rowsDot
  refine Finset.sum_congr rfl fun k _ => ?_
  show lhsArr V c (((cfg0.win 0).blk t).view.emb (ix2 p k)) * rhsArr V c (((cfg0.win 1).blk t).view.emb (ix2 k q))
    = lhsArr V c (ix2 ((((cfg0.win 2).blk t).view.emb (ix2 p q)) 0) k) * rhsArr V c (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [h0, h1]
  rfl

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v28).slice (win0_2.rect t)).set ↔ _
  rw [View.set_slice_whole, Rect.mem_set_unit]
  exact Iff.rfl

/-- Every block row of the output is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- The 25 row blocks tile the output: row `r` is in the block of the point whose block row is `r / 4000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The output array after the region's 25 points. -/
theorem arr0 (c : Dev nD) :
    (dat0 V c).arrAt 2 cfg0.N = Cert.Gcn.rowsDot 100000 128 64 (V c main_arg0) (V c main_arg2) :=
  (dat0 V c).arrAt_eq_of_cover 2 _ (fun t _ => flushed_eq V c t) cover

end Cert.KernelIdeal.Hand0

end
-- ==== Proof.KReg1.lean ====
/-
  The combine region of the first layer: its output array, after the 25 grid points, is `combine` of the three arrays
  it reads. Point `t` loads rows `4000 t … 4000 t + 3999` of the aggregate and of the self-loop term and the whole bias
  row, and stores `max ((a + s) + b, 0)` into the same rows of the output; the 25 row blocks tile the array.
-/
import proofs.«168553_j28166395527551_1_alg».proof.Proof.Gen.KernelIdeal.Frame
import proofs.«168553_j28166395527551_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Hand1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at row `p`, feature `q` of the block: the two blocks' entries and the bias row's entry at `q`. -/
theorem pay_apply (x0 x1 : Vec Ideal S4000x64 .f32) (x2 : Vec Ideal S1x64 .f32) (p : Fin 4000) (q : Fin 64) :
    k1_pay1 x0 x1 x2 (ix2 p q) = Cert.Gcn.relu3 (x0 (ix2 p q)) (x1 (ix2 p q)) (x2 (ix2 (0 : Fin 1) q)) := by
  unfold k1_pay1
  simp only [shapeCast_self]
  rw [maximumf_apply, addf_apply, addf_apply, broadcastTo_1b_ab_apply, broadcast_apply]
  show max _ (Ideal.ofBits .f32 0x00000000#32) = _
  rw [Ideal.ofBits_zero_f32]
  rfl

/-- The index maps over the grid: the three row-blocked windows sit at block row `t`, block column 0; the bias row at
    block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `combine` of the arrays as the region finds them. -/
theorem flushed_eq (c : Dev nD) (t : Fin cfg1.N) :
    (dat1 V c).flushed 3 t = ((cfg1.win 3).blk t).view.read (Elt Ideal)
      (Cert.Gcn.combine 100000 64 (V c main_v41) (V c main_v44) (V c main_v45)) := by
  show (cfg1.win 3).cut (grid1.coords t) ((dat1 V c).after 3 t) = _
  rw [after1_3]
  unfold out1_3
  rw [View.canon_unit_zero hz]
  simp only [View.ld_unit_zero (S := S4000x64) hz, View.ld_unit_zero (S := S1x64) hz]
  obtain ⟨e0, e1, e2, e3, e4, e5, e6, e7⟩ := idx_facts t
  funext j
  obtain ⟨p, q, rfl⟩ : ∃ (p : Fin 4000) (q : Fin 64), j = ix2 p q := ⟨j 0, j 1, eq_ix2 j⟩
  show k1_pay1 (iblk1 V c 0 t) (iblk1 V c 1 t) (iblk1 V c 2 t) (ix2 p q) = _
  refine (pay_apply (iblk1 V c 0 t) (iblk1 V c 1 t) (iblk1 V c 2 t) p q).trans ?_
  show _ = Cert.Gcn.combine 100000 64 (V c main_v41) (V c main_v44) (V c main_v45) (((cfg1.win 3).blk t).view.emb (ix2 p q))
  unfold Cert.Gcn.combine
  show Cert.Gcn.relu3 (V c main_v41 (((cfg1.win 0).blk t).view.emb (ix2 p q))) (V c main_v44 (((cfg1.win 1).blk t).view.emb (ix2 p q)))
      (V c main_v45 (((cfg1.win 2).blk t).view.emb (ix2 (0 : Fin 1) q)))
    = Cert.Gcn.relu3 (V c main_v41 (((cfg1.win 3).blk t).view.emb (ix2 p q))) (V c main_v44 (((cfg1.win 3).blk t).view.emb (ix2 p q)))
      (V c main_v45 (ix2 (0 : Fin 1) ((((cfg1.win 3).blk t).view.emb (ix2 p q)) 1)))
  have h0 : ((cfg1.win 0).blk t).view.emb (ix2 p q) = ((cfg1.win 3).blk t).view.emb (ix2 p q) := by
    funext a; apply Fin.ext
    match a with
    | ⟨0, _⟩ => show win1_0.index t (0 : Fin 2) * 4000 + 1 * p.val = win1_3.index t (0 : Fin 2) * 4000 + 1 * p.val; omega
    | ⟨1, _⟩ => show win1_0.index t (1 : Fin 2) * 64 + 1 * q.val = win1_3.index t (1 : Fin 2) * 64 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 4000 + 1 * p.val = win1_3.index t (0 : Fin 2) * 4000 + 1 * p.val; omega
    | ⟨1, _⟩ => show win1_1.index t (1 : Fin 2) * 64 + 1 * q.val = win1_3.index t (1 : Fin 2) * 64 + 1 * q.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  rw [h0, h1, h2]
  rfl

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v46).slice (win1_3.rect t)).set ↔ _
  rw [View.set_slice_whole, Rect.mem_set_unit]
  exact Iff.rfl

/-- Every block row of the output is some point's. -/
theorem idx_onto : ∀ q0 : Fin 25, ∃ t : Fin cfg1.N, win1_3.index t = ![q0.val, 0] :=
  (by decide +kernel : ∀ q0 : Fin 25, ∃ t : Fin grid1.N, win1_3.index t = ![q0.val, 0])

/-- The 25 row blocks tile the output: row `r` is in the block of the point whose block row is `r / 4000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 64 ≤ (i 1).val ∧ (i 1).val < win1_3.index t (1 : Fin 2) * 64 + 64; omega

/-- The output array after the region's 25 points. -/
theorem arr1 (c : Dev nD) :
    (dat1 V c).arrAt 3 cfg1.N = Cert.Gcn.combine 100000 64 (V c main_v41) (V c main_v44) (V c main_v45) :=
  (dat1 V c).arrAt_eq_of_cover 3 _ (fun t _ => flushed_eq V c t) cover

end Cert.KernelIdeal.Hand1

end
-- ==== Proof.KReg2.lean ====
/-
  The feature product of layer two: its output array, after the 25 grid points, is the rows-times-matrix product of the
  two arrays it reads. Point `t` loads rows `4000 t … 4000 t + 3999` of the node features and the whole weight matrix,
  narrows both (the identity on the extended reals) and stores their product into a zero accumulator into the same rows of
  the output: entry `(p, q)` of the block is the sum over `k` of the row's entry `k` times the matrix's entry `(k, q)`.
  The 25 row blocks tile the array.
-/
import proofs.«168553_j28166395527551_1_alg».proof.Proof.Gen.KernelIdeal.Frame
import proofs.«168553_j28166395527551_1_alg».proof.Proof.Spec
import proofs.«168553_j28166395527551_1_alg».proof.Proof.LibPlainDotAny
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Hand2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The node features and the weight matrix as the region finds them, at their literal types. -/
abbrev lhsArr (c : Dev nD) : FVec Ideal S100000x64 .f32 := V c main_v46
abbrev rhsArr (c : Dev nD) : FVec Ideal S64x64 .f32 := V c main_arg4

/-- The body's value at an index of the block: the row of the left block against the column of the right block. -/
theorem pay_apply (x0 : Vec Ideal S4000x64 .f32) (x1 : Vec Ideal S64x64 .f32) (j : S4000x64.Idx) :
    k2_pay1 x0 x1 j = ∑ k : Fin 64, x0 (ix2 (j 0) k) * x1 (ix2 k (j 1)) := by
  unfold k2_pay1
  try simp only [shapeCast_self]
  exact PlainDot.matmul_zero_apply_any 4000 64 64 none _ _ j

/-- The index maps over the grid: the row-blocked windows sit at block row `t`, block column 0; the weight matrix at
    block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the arrays as the region finds them. -/
theorem flushed_eq (c : Dev nD) (t : Fin cfg2.N) :
    (dat2 V c).flushed 2 t = ((cfg2.win 2).blk t).view.read (Elt Ideal)
      (Cert.Gcn.rowsDot 100000 64 64 (V c main_v46) (V c main_arg4)) := by
  show (cfg2.win 2).cut (grid2.coords t) ((dat2 V c).after 2 t) = _
  rw [after2_2]
  unfold out2_2
  rw [View.canon_unit_zero hz]
  simp only [View.ld_unit_zero (S := S4000x64) hz, View.ld_unit_zero (S := S64x64) hz]
  obtain ⟨e0, e1, e2, e3, e4, e5⟩ := idx_facts t
  funext j
  obtain ⟨p, q, rfl⟩ : ∃ (p : Fin 4000) (q : Fin 64), j = ix2 p q := ⟨j 0, j 1, eq_ix2 j⟩
  show k2_pay1 (iblk2 V c 0 t) (iblk2 V c 1 t) (ix2 p q) = _
  refine (pay_apply (iblk2 V c 0 t) (iblk2 V c 1 t) (ix2 p q)).trans ?_
  show _ = Cert.Gcn.rowsDot 100000 64 64 (V c main_v46) (V c main_arg4) (((cfg2.win 2).blk t).view.emb (ix2 p q))
  unfold Cert.Gcn.rowsDot
  refine Finset.sum_congr rfl fun k _ => ?_
  show lhsArr V c (((cfg2.win 0).blk t).view.emb (ix2 p k)) * rhsArr V c (((cfg2.win 1).blk t).view.emb (ix2 k q))
    = lhsArr V c (ix2 ((((cfg2.win 2).blk t).view.emb (ix2 p q)) 0) k) * rhsArr V c (ix2 k ((((cfg2.win 2).blk t).view.emb (ix2 p q)) 1))
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 64 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [h0, h1]
  rfl

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v47).slice (win2_2.rect t)).set ↔ _
  rw [View.set_slice_whole, Rect.mem_set_unit]
  exact Iff.rfl

/-- Every block row of the output is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- The 25 row blocks tile the output: row `r` is in the block of the point whose block row is `r / 4000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 64 ≤ (i 1).val ∧ (i 1).val < win2_2.index t (1 : Fin 2) * 64 + 64; omega

/-- The output array after the region's 25 points. -/
theorem arr2 (c : Dev nD) :
    (dat2 V c).arrAt 2 cfg2.N = Cert.Gcn.rowsDot 100000 64 64 (V c main_v46) (V c main_arg4) :=
  (dat2 V c).arrAt_eq_of_cover 2 _ (fun t _ => flushed_eq V c t) cover

end Cert.KernelIdeal.Hand2

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KReg3.lean ====
/-
  The combine-and-head region of the second layer: its output column, after the 25 grid points, is `headOf` of the five
  arrays it reads. Point `t` loads rows `4000 t … 4000 t + 3999` of the aggregate and of the self-loop term, the bias
  row, the head's weight row and its one-entry bias; it forms `max ((a + s) + b, 0)`, multiplies each row by the weight
  row, sums every row over its 64 features and adds the bias, and stores the 4000 sums into the same rows of the output
  column. The 25 row blocks tile the column.
-/
import proofs.«168553_j28166395527551_1_alg».proof.Proof.Gen.KernelIdeal.Frame
import proofs.«168553_j28166395527551_1_alg».proof.Proof.Spec
import proofs.«168553_j28166395527551_1_alg».proof.Proof.LibKeepdims
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Hand3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The five arrays as the region finds them, at their literal types. -/
abbrev aggArr (c : Dev nD) : FVec Ideal S100000x64 .f32 := V c main_v60
abbrev selfArr (c : Dev nD) : FVec Ideal S100000x64 .f32 := V c main_v63
abbrev biasRow (c : Dev nD) : FVec Ideal S1x64 .f32 := V c main_v66
abbrev headRow (c : Dev nD) : FVec Ideal S1x64 .f32 := V c main_v64
abbrev headBias (c : Dev nD) : FVec Ideal S1x1 .f32 := V c main_v65

/-- The source index of the sum over the features: row `p` with the feature `k` put back is `(p, k)`. -/
theorem lift_eq (p : Fin 4000) (k : Fin (S4000x64.size 1)) : (reduces_S4000x64_S4000).lift (ix1 p) k = ix2 p k := by
  funext a; apply Fin.ext
  match a with
  | ⟨0, _⟩ => rfl
  | ⟨1, _⟩ => rfl

/-- One term of a row's sum: the combined entry at feature `k` times the weight row's entry. -/
theorem term_apply (x0 x1 : Vec Ideal S4000x64 .f32) (x2 x3 : Vec Ideal S1x64 .f32) (p : Fin 4000) (k : Fin 64) :
    mulf (maximumf (addf (addf x0 x1) (broadcastTo S4000x64 x2 broadcasts_S1x64_S4000x64))
        (broadcast S4000x64 (Scalar.ofBits (F := Ideal) .f32 0x00000000#32)))
      (broadcastTo S4000x64 x3 broadcasts_S1x64_S4000x64) (ix2 p k)
      = Cert.Gcn.relu3 (x0 (ix2 p k)) (x1 (ix2 p k)) (x2 (ix2 (0 : Fin 1) k)) * x3 (ix2 (0 : Fin 1) k) := by
  rw [mulf_apply, maximumf_apply, addf_apply, addf_apply, broadcastTo_1b_ab_apply, broadcastTo_1b_ab_apply, broadcast_apply]
  show max _ (Ideal.ofBits .f32 0x00000000#32) * _ = _
  rw [Ideal.ofBits_zero_f32]
  rfl

/-- The body's value at row `p` of the block: the combined row against the weight row, summed over the features, plus
    the bias. -/
theorem pay_apply (x0 x1 : Vec Ideal S4000x64 .f32) (x2 x3 : Vec Ideal S1x64 .f32) (x4 : Vec Ideal S1x1 .f32) (p : Fin 4000) :
    k3_pay1 (F := Ideal) x0 x1 x2 x3 x4 (ix2 p (0 : Fin 1))
      = (∑ k : Fin 64, Cert.Gcn.relu3 (x0 (ix2 p k)) (x1 (ix2 p k)) (x2 (ix2 (0 : Fin 1) k)) * x3 (ix2 (0 : Fin 1) k))
        + x4 (ix2 (0 : Fin 1) (0 : Fin 1)) := by
  unfold k3_pay1
  simp only [shapeCast_self]
  rw [addf_apply, broadcastTo_1b_ab_apply, Keepdims.shapeCast_a_a1_apply]
  refine congrArg (· + x4 (ix2 (0 : Fin 1) (0 : Fin 1))) ?_
  refine (Ideal.multiReduction_add_single _ _ reduces_S4000x64_S4000 _ _ (ix1 p)).trans ?_
  refine Finset.sum_congr rfl fun k _ => ?_
  rw [lift_eq p k]
  exact term_apply x0 x1 x2 x3 p k

/-- The index maps over the grid: the three row-blocked windows sit at block row `t`, block column 0; the two rows and
    the one-entry bias at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of `headOf` of the arrays as the region finds them. -/
theorem flushed_eq (c : Dev nD) (t : Fin cfg3.N) :
    (dat3 V c).flushed 5 t = ((cfg3.win 5).blk t).view.read (Elt Ideal)
      (Cert.Gcn.headOf 100000 64 (V c main_v60) (V c main_v63) (V c main_v66) (V c main_v64) (V c main_v65)) := by
  show (cfg3.win 5).cut (grid3.coords t) ((dat3 V c).after 5 t) = _
  rw [after3_5]
  unfold out3_5
  rw [View.canon_unit_zero hz]
  simp only [View.ld_unit_zero (S := S4000x64) hz, View.ld_unit_zero (S := S1x64) hz, View.ld_unit_zero (S := S1x1) hz]
  obtain ⟨e0, e1, e2, e3, e4, e5, e6, e7, e8, e9, e10, e11⟩ := idx_facts t
  funext j
  obtain ⟨p, u, rfl⟩ : ∃ (p : Fin 4000) (u : Fin 1), j = ix2 p u := ⟨j 0, j 1, eq_ix2 j⟩
  obtain rfl : u = 0 := Subsingleton.elim _ _
  show k3_pay1 (iblk3 V c 0 t) (iblk3 V c 1 t) (iblk3 V c 2 t) (iblk3 V c 3 t) (iblk3 V c 4 t) (ix2 p (0 : Fin 1)) = _
  refine (pay_apply (iblk3 V c 0 t) (iblk3 V c 1 t) (iblk3 V c 2 t) (iblk3 V c 3 t) (iblk3 V c 4 t) p).trans ?_
  show _ = Cert.Gcn.headOf 100000 64 (V c main_v60) (V c main_v63) (V c main_v66) (V c main_v64) (V c main_v65)
    (((cfg3.win 5).blk t).view.emb (ix2 p (0 : Fin 1)))
  unfold Cert.Gcn.headOf
  refine congrArg₂ (· + ·) (Finset.sum_congr rfl fun k _ => ?_) ?_
  · show Cert.Gcn.relu3 (aggArr V c (((cfg3.win 0).blk t).view.emb (ix2 p k))) (selfArr V c (((cfg3.win 1).blk t).view.emb (ix2 p k)))
        (biasRow V c (((cfg3.win 2).blk t).view.emb (ix2 (0 : Fin 1) k))) * headRow V c (((cfg3.win 3).blk t).view.emb (ix2 (0 : Fin 1) k))
      = Cert.Gcn.relu3 (aggArr V c (ix2 ((((cfg3.win 5).blk t).view.emb (ix2 p (0 : Fin 1))) 0) k))
        (selfArr V c (ix2 ((((cfg3.win 5).blk t).view.emb (ix2 p (0 : Fin 1))) 0) k))
        (biasRow V c (ix2 (0 : Fin 1) k)) * headRow V c (ix2 (0 : Fin 1) k)
    have h0 : ((cfg3.win 0).blk t).view.emb (ix2 p k) = ix2 ((((cfg3.win 5).blk t).view.emb (ix2 p (0 : Fin 1))) 0) k := by
      funext a; apply Fin.ext
      match a with
      | ⟨0, _⟩ => show win3_0.index t (0 : Fin 2) * 4000 + 1 * p.val = win3_5.index t (0 : Fin 2) * 4000 + 1 * p.val; omega
      | ⟨1, _⟩ => show win3_0.index t (1 : Fin 2) * 64 + 1 * k.val = k.val; omega
    have h1 : ((cfg3.win 1).blk t).view.emb (ix2 p k) = ix2 ((((cfg3.win 5).blk t).view.emb (ix2 p (0 : Fin 1))) 0) k := by
      funext a; apply Fin.ext
      match a with
      | ⟨0, _⟩ => show win3_1.index t (0 : Fin 2) * 4000 + 1 * p.val = win3_5.index t (0 : Fin 2) * 4000 + 1 * p.val; omega
      | ⟨1, _⟩ => show win3_1.index t (1 : Fin 2) * 64 + 1 * k.val = k.val; omega
    have h2 : ((cfg3.win 2).blk t).view.emb (ix2 (0 : Fin 1) k) = ix2 (0 : Fin 1) k := by
      funext a; apply Fin.ext
      match a with
      | ⟨0, _⟩ => show win3_2.index t (0 : Fin 2) * 1 + 1 * 0 = 0; omega
      | ⟨1, _⟩ => show win3_2.index t (1 : Fin 2) * 64 + 1 * k.val = k.val; omega
    have h3 : ((cfg3.win 3).blk t).view.emb (ix2 (0 : Fin 1) k) = ix2 (0 : Fin 1) k := by
      funext a; apply Fin.ext
      match a with
      | ⟨0, _⟩ => show win3_3.index t (0 : Fin 2) * 1 + 1 * 0 = 0; omega
      | ⟨1, _⟩ => show win3_3.index t (1 : Fin 2) * 64 + 1 * k.val = k.val; omega
    rw [h0, h1, h2, h3]
    rfl
  · show headBias V c (((cfg3.win 4).blk t).view.emb (ix2 (0 : Fin 1) (0 : Fin 1))) = headBias V c (ix2 (0 : Fin 1) (0 : Fin 1))
    have h4 : ((cfg3.win 4).blk t).view.emb (ix2 (0 : Fin 1) (0 : Fin 1)) = ix2 (0 : Fin 1) (0 : Fin 1) := by
      funext a; apply Fin.ext
      match a with
      | ⟨0, _⟩ => show win3_4.index t (0 : Fin 2) * 1 + 1 * 0 = 0; omega
      | ⟨1, _⟩ => show win3_4.index t (1 : Fin 2) * 1 + 1 * 0 = 0; omega
    rw [h4]

/-- An index of the output column is in point `t`'s block iff each coordinate is in the block's range on its axis. -/
theorem mem_blk (t : Fin cfg3.N) (i : S100000x1.Idx) :
    i ∈ ((cfg3.win 5).blk t).view.set ↔ ∀ a : Fin 2, win3_5.index t a * S4000x1.size a ≤ (i a).val ∧ (i a).val < win3_5.index t a * S4000x1.size a + S4000x1.size a := by
  show i ∈ ((View.whole main_v67).slice (win3_5.rect t)).set ↔ _
  rw [View.set_slice_whole, Rect.mem_set_unit]
  exact Iff.rfl

/-- Every block row of the output is some point's. -/
theorem idx_onto : ∀ q0 : Fin 25, ∃ t : Fin cfg3.N, win3_5.index t = ![q0.val, 0] :=
  (by decide +kernel : ∀ q0 : Fin 25, ∃ t : Fin grid3.N, win3_5.index t = ![q0.val, 0])

/-- The 25 row blocks tile the output: row `r` is in the block of the point whose block row is `r / 4000`. -/
theorem cover (i : S100000x1.Idx) : ∃ t : Fin cfg3.N, (cfg3.win 5).flush t = true ∧ i ∈ ((cfg3.win 5).blk t).view.set := by
  have hi0 : (i 0).val < 100000 := (i 0).isLt
  have hi1 : (i 1).val < 1 := (i 1).isLt
  obtain ⟨t, ht⟩ := idx_onto ⟨(i 0).val / 4000, by omega⟩
  have q0 : win3_5.index t (0 : Fin 2) = (i 0).val / 4000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 1 ≤ (i 1).val ∧ (i 1).val < win3_5.index t (1 : Fin 2) * 1 + 1; omega

/-- The output column after the region's 25 points. -/
theorem arr3 (c : Dev nD) :
    (dat3 V c).arrAt 5 cfg3.N
      = Cert.Gcn.headOf 100000 64 (V c main_v60) (V c main_v63) (V c main_v66) (V c main_v64) (V c main_v65) :=
  (dat3 V c).arrAt_eq_of_cover 5 _ (fun t _ => flushed_eq V c t) cover

end Cert.KernelIdeal.Hand3

end
-- ==== Proof.KFold.lean ====
/-
  The kernel's result buffer, walked back from the last segment boundary to the launch memory.

  Between the launch and the return the buffers pass eight boundaries: a stretch of host operations, the first feature
  product, a stretch, the first combine, the second feature product, a stretch, the combine-and-head, the closing reshape.
  At each boundary the buffers a later segment reads are named as functions of the argument arrays: the source and
  destination index vectors, the edge weights `dinv[src] * dinv[dst]` and the inverse degrees from the edge list, once,
  before the first region; each region's output as its whole-array function (`rowsDot`, `combine`, `headOf`) of what it
  reads; each stretch's aggregate and self-loop term by the host operations that compute them; everything a segment does
  not write as it was one boundary earlier.
-/
import proofs.«168553_j28166395527551_1_alg».proof.Proof.Gen.KernelIdeal.Frame
import proofs.«168553_j28166395527551_1_alg».proof.Proof.KReg0
import proofs.«168553_j28166395527551_1_alg».proof.Proof.KReg1
import proofs.«168553_j28166395527551_1_alg».proof.Proof.KReg2
import proofs.«168553_j28166395527551_1_alg».proof.Proof.KReg3
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen

/-! ## The host operations both layers share, as functions -/

abbrev EdgeList := IVec S2x1600000 32
abbrev EdgeIdx := IVec S1600000 32
abbrev EdgeCol := IVec S1600000x1 32
abbrev EdgeVal := FVec Ideal S1600000 .f32
abbrev NodeVal := FVec Ideal S100000 .f32
abbrev Feats := FVec Ideal S100000x64 .f32

/-- The edges' source nodes: row 0 of the edge list. -/
def srcOf (e : EdgeList) : EdgeIdx :=
  shapeCast S1600000 (extractStridedSlice S1x1600000 ![0, 0] e slices_S2x1600000_S1x1600000_0_0) shapeCasts_S1x1600000_S1600000
/-- The edges' destination nodes: row 1 of the edge list. -/
def dstOf (e : EdgeList) : EdgeIdx :=
  shapeCast S1600000 (extractStridedSlice S1x1600000 ![1, 0] e slices_S2x1600000_S1x1600000_1_0) shapeCasts_S1x1600000_S1600000
/-- An index vector as a gather's start-index column, a negative index first moved up by the node count. -/
def wrapCol (s : EdgeIdx) : EdgeCol :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The degree with the self-loop: one per incoming edge, scattered onto the destinations, plus one. -/
def degOf (d : EdgeIdx) : NodeVal :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32))
/-- The edge weights: the inverse square root of the degree at the source times that at the destination. -/
def edgeW (s d : EdgeIdx) : EdgeVal :=
  mulf (Host.gather gather_S100000_S1600000x1_S1600000_n_0_n_n_0_1_1 (Host.rsqrt (F := Ideal) (degOf d)) (wrapCol s))
    (Host.gather gather_S100000_S1600000x1_S1600000_n_0_n_n_0_1_1 (Host.rsqrt (F := Ideal) (degOf d)) (wrapCol d))
/-- The self-loop's weight: one over the degree. -/
def invDeg (d : EdgeIdx) : NodeVal :=
  Host.divf (F := Ideal) (broadcastInDim S100000 ![] bcast_S_S100000 (constant (F := Ideal) S_ .f32 0x3F800000#32)) (degOf d)
/-- The neighbours' term: the features gathered at the sources, weighted, scatter-added onto the destinations. -/
def aggOf (h : Feats) (s d : EdgeIdx) (w : EdgeVal) : Feats :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (mulf (Host.gather gather_S100000x64_S1600000x1_S1600000x64_1_0_n_n_0_1_164 h (wrapCol s))
      (broadcastInDim S1600000x64 ![0, 1] bcast_S1600000x1_S1600000x64_0_1
        (broadcastInDim S1600000x1 ![0] bcast_S1600000_S1600000x1_0 w)))
/-- The self-loop term: each node's features times one over its degree. -/
def selfOf (h : Feats) (inv : NodeVal) : Feats :=
  mulf h (broadcastInDim S100000x64 ![0, 1] bcast_S100000x1_S100000x64_0_1
    (broadcastInDim S100000x1 ![0] bcast_S100000_S100000x1_0 inv))

variable (m : (ℓ : Loc nD τ sig) → Buf (Elt Ideal) ℓ) (ρ : Dev nD → PrngReg)

/-! ## Before the first region -/

set_option maxHeartbeats 4000000 in
theorem W1_src (c : Dev nD) : W1 m ρ c (Proc.devRef .tc main_v1) = srcOf (m ((c : Thread nD τ).loc main_arg1)) := by
  show StableHlo.after hostOps0 _ (Proc.devRef .tc main_v1) = _
  after_results_simp
  rfl
set_option maxHeartbeats 4000000 in
theorem W1_dst (c : Dev nD) : W1 m ρ c (Proc.devRef .tc main_v3) = dstOf (m ((c : Thread nD τ).loc main_arg1)) := by
  show StableHlo.after hostOps0 _ (Proc.devRef .tc main_v3) = _
  after_results_simp
  rfl
set_option maxHeartbeats 4000000 in
theorem W1_w (c : Dev nD) : W1 m ρ c (Proc.devRef .tc main_v25) = edgeW (srcOf (m ((c : Thread nD τ).loc main_arg1))) (dstOf (m ((c : Thread nD τ).loc main_arg1))) := by
  show StableHlo.after hostOps0 _ (Proc.devRef .tc main_v25) = _
  after_results_simp
  rfl
set_option maxHeartbeats 4000000 in
theorem W1_inv (c : Dev nD) : W1 m ρ c (Proc.devRef .tc main_v27) = invDeg (dstOf (m ((c : Thread nD τ).loc main_arg1))) := by
  show StableHlo.after hostOps0 _ (Proc.devRef .tc main_v27) = _
  after_results_simp
  rfl
set_option maxHeartbeats 4000000 in
theorem W1_arg0 (c : Dev nD) : W1 m ρ c (Proc.devRef .tc main_arg0) = (m ((c : Thread nD τ).loc main_arg0)) := by
  show StableHlo.after hostOps0 _ (Proc.devRef .tc main_arg0) = _
  after_results_simp
set_option maxHeartbeats 4000000 in
theorem W1_arg2 (c : Dev nD) : W1 m ρ c (Proc.devRef .tc main_arg2) = (m ((c : Thread nD τ).loc main_arg2)) := by
  show StableHlo.after hostOps0 _ (Proc.devRef .tc main_arg2) = _
  after_results_simp
set_option maxHeartbeats 4000000 in
theorem W1_arg3 (c : Dev nD) : W1 m ρ c (Proc.devRef .tc main_arg3) = (m ((c : Thread nD τ).loc main_arg3)) := by
  show StableHlo.after hostOps0 _ (Proc.devRef .tc main_arg3) = _
  after_results_simp
set_option maxHeartbeats 4000000 in
theorem W1_arg4 (c : Dev nD) : W1 m ρ c (Proc.devRef .tc main_arg4) = (m ((c : Thread nD τ).loc main_arg4)) := by
  show StableHlo.after hostOps0 _ (Proc.devRef .tc main_arg4) = _
  after_results_simp
set_option maxHeartbeats 4000000 in
theorem W1_arg5 (c : Dev nD) : W1 m ρ c (Proc.devRef .tc main_arg5) = (m ((c : Thread nD τ).loc main_arg5)) := by
  show StableHlo.after hostOps0 _ (Proc.devRef .tc main_arg5) = _
  after_results_simp
set_option maxHeartbeats 4000000 in
theorem W1_arg6 (c : Dev nD) : W1 m ρ c (Proc.devRef .tc main_arg6) = (m ((c : Thread nD τ).loc main_arg6)) := by
  show StableHlo.after hostOps0 _ (Proc.devRef .tc main_arg6) = _
  after_results_simp
set_option maxHeartbeats 4000000 in
theorem W1_arg7 (c : Dev nD) : W1 m ρ c (Proc.devRef .tc main_arg7) = (m ((c : Thread nD τ).loc main_arg7)) := by
  show StableHlo.after hostOps0 _ (Proc.devRef .tc main_arg7) = _
  after_results_simp

/-! ## The values the boundaries name, as functions of the argument arrays -/

/-- The first layer's transformed features. -/
def feat1 (x : FVec Ideal S100000x128 .f32) (w1 : FVec Ideal S128x64 .f32) : Feats :=
  Cert.Gcn.rowsDot 100000 128 64 x w1
/-- The first layer's output: neighbours' term, self-loop term and bias combined, cut off at zero. -/
def layer1 (h : Feats) (e : EdgeList) (b1 : FVec Ideal S64 .f32) : Feats :=
  Cert.Gcn.combine 100000 64 (aggOf h (srcOf e) (dstOf e) (edgeW (srcOf e) (dstOf e))) (selfOf h (invDeg (dstOf e)))
    (shapeCast S1x64 b1 shapeCasts_S64_S1x64)
/-- The second layer's transformed features. -/
def feat2 (r : Feats) (w2 : FVec Ideal S64x64 .f32) : Feats :=
  Cert.Gcn.rowsDot 100000 64 64 r w2
/-- The result: the second layer's output against the head's weights, plus its bias, as a vector over the nodes. -/
def result (h : Feats) (e : EdgeList) (b2 : FVec Ideal S64 .f32)
    (wl : FVec Ideal S64x1 .f32) (bl : FVec Ideal S1 .f32) :
    FVec Ideal S100000 .f32 :=
  shapeCast S100000 (Cert.Gcn.headOf 100000 64 (aggOf h (srcOf e) (dstOf e) (edgeW (srcOf e) (dstOf e))) (selfOf h (invDeg (dstOf e)))
    (shapeCast S1x64 b2 shapeCasts_S64_S1x64) (shapeCast S1x64 wl shapeCasts_S64x1_S1x64) (shapeCast S1x1 bl shapeCasts_S1_S1x1))
    shapeCasts_S100000x1_S100000

/-! ## After the first feature product -/

theorem W2_h1 (c : Dev nD) : W2 m ρ c (Proc.devRef .tc main_v28) = feat1 (m ((c : Thread nD τ).loc main_arg0)) (m ((c : Thread nD τ).loc main_arg2)) := by
  refine (W2_arr m ρ c 2).trans ((Cert.KernelIdeal.Hand0.arr0 (V1 m ρ) c).trans ?_)
  show Cert.Gcn.rowsDot 100000 128 64 (W1 m ρ c (Proc.devRef .tc main_arg0)) (W1 m ρ c (Proc.devRef .tc main_arg2)) = _
  rw [W1_arg0, W1_arg2]
  rfl
theorem W2_src (c : Dev nD) : W2 m ρ c (Proc.devRef .tc main_v1) = (srcOf (m ((c : Thread nD τ).loc main_arg1))) := (W2_of_ne m ρ c main_v1 (by decide)).trans (W1_src m ρ c)
theorem W2_dst (c : Dev nD) : W2 m ρ c (Proc.devRef .tc main_v3) = (dstOf (m ((c : Thread nD τ).loc main_arg1))) := (W2_of_ne m ρ c main_v3 (by decide)).trans (W1_dst m ρ c)
theorem W2_w (c : Dev nD) : W2 m ρ c (Proc.devRef .tc main_v25) = (edgeW (srcOf (m ((c : Thread nD τ).loc main_arg1))) (dstOf (m ((c : Thread nD τ).loc main_arg1)))) := (W2_of_ne m ρ c main_v25 (by decide)).trans (W1_w m ρ c)
theorem W2_inv (c : Dev nD) : W2 m ρ c (Proc.devRef .tc main_v27) = (invDeg (dstOf (m ((c : Thread nD τ).loc main_arg1)))) := (W2_of_ne m ρ c main_v27 (by decide)).trans (W1_inv m ρ c)
theorem W2_arg3 (c : Dev nD) : W2 m ρ c (Proc.devRef .tc main_arg3) = (m ((c : Thread nD τ).loc main_arg3)) := (W2_of_ne m ρ c main_arg3 (by decide)).trans (W1_arg3 m ρ c)
theorem W2_arg4 (c : Dev nD) : W2 m ρ c (Proc.devRef .tc main_arg4) = (m ((c : Thread nD τ).loc main_arg4)) := (W2_of_ne m ρ c main_arg4 (by decide)).trans (W1_arg4 m ρ c)
theorem W2_arg5 (c : Dev nD) : W2 m ρ c (Proc.devRef .tc main_arg5) = (m ((c : Thread nD τ).loc main_arg5)) := (W2_of_ne m ρ c main_arg5 (by decide)).trans (W1_arg5 m ρ c)
theorem W2_arg6 (c : Dev nD) : W2 m ρ c (Proc.devRef .tc main_arg6) = (m ((c : Thread nD τ).loc main_arg6)) := (W2_of_ne m ρ c main_arg6 (by decide)).trans (W1_arg6 m ρ c)
theorem W2_arg7 (c : Dev nD) : W2 m ρ c (Proc.devRef .tc main_arg7) = (m ((c : Thread nD τ).loc main_arg7)) := (W2_of_ne m ρ c main_arg7 (by decide)).trans (W1_arg7 m ρ c)

/-! ## Before the first combine -/

set_option maxHeartbeats 4000000 in
theorem W3_agg (c : Dev nD) : W3 m ρ c (Proc.devRef .tc main_v41) = aggOf (feat1 (m ((c : Thread nD τ).loc main_arg0)) (m ((c : Thread nD τ).loc main_arg2))) (srcOf (m ((c : Thread nD τ).loc main_arg1))) (dstOf (m ((c : Thread nD τ).loc main_arg1))) (edgeW (srcOf (m ((c : Thread nD τ).loc main_arg1))) (dstOf (m ((c : Thread nD τ).loc main_arg1)))) := by
  show StableHlo.after hostOps1 _ (Proc.devRef .tc main_v41) = _
  after_results_simp
  rw [W2_h1, W2_src, W2_dst, W2_w]
  rfl
set_option maxHeartbeats 4000000 in
theorem W3_self (c : Dev nD) : W3 m ρ c (Proc.devRef .tc main_v44) = selfOf (feat1 (m ((c : Thread nD τ).loc main_arg0)) (m ((c : Thread nD τ).loc main_arg2))) (invDeg (dstOf (m ((c : Thread nD τ).loc main_arg1)))) := by
  show StableHlo.after hostOps1 _ (Proc.devRef .tc main_v44) = _
  after_results_simp
  rw [W2_h1, W2_inv]
  rfl
set_option maxHeartbeats 4000000 in
theorem W3_bias (c : Dev nD) : W3 m ρ c (Proc.devRef .tc main_v45) = shapeCast S1x64 (m ((c : Thread nD τ).loc main_arg3)) shapeCasts_S64_S1x64 := by
  show StableHlo.after hostOps1 _ (Proc.devRef .tc main_v45) = _
  after_results_simp
  rw [W2_arg3]
  rfl
set_option maxHeartbeats 4000000 in
theorem W3_src (c : Dev nD) : W3 m ρ c (Proc.devRef .tc main_v1) = (srcOf (m ((c : Thread nD τ).loc main_arg1))) := by
  show StableHlo.after hostOps1 _ (Proc.devRef .tc main_v1) = _
  after_results_simp
  exact W2_src m ρ c
set_option maxHeartbeats 4000000 in
theorem W3_dst (c : Dev nD) : W3 m ρ c (Proc.devRef .tc main_v3) = (dstOf (m ((c : Thread nD τ).loc main_arg1))) := by
  show StableHlo.after hostOps1 _ (Proc.devRef .tc main_v3) = _
  after_results_simp
  exact W2_dst m ρ c
set_option maxHeartbeats 4000000 in
theorem W3_w (c : Dev nD) : W3 m ρ c (Proc.devRef .tc main_v25) = (edgeW (srcOf (m ((c : Thread nD τ).loc main_arg1))) (dstOf (m ((c : Thread nD τ).loc main_arg1)))) := by
  show StableHlo.after hostOps1 _ (Proc.devRef .tc main_v25) = _
  after_results_simp
  exact W2_w m ρ c
set_option maxHeartbeats 4000000 in
theorem W3_inv (c : Dev nD) : W3 m ρ c (Proc.devRef .tc main_v27) = (invDeg (dstOf (m ((c : Thread nD τ).loc main_arg1)))) := by
  show StableHlo.after hostOps1 _ (Proc.devRef .tc main_v27) = _
  after_results_simp
  exact W2_inv m ρ c
set_option maxHeartbeats 4000000 in
theorem W3_arg4 (c : Dev nD) : W3 m ρ c (Proc.devRef .tc main_arg4) = (m ((c : Thread nD τ).loc main_arg4)) := by
  show StableHlo.after hostOps1 _ (Proc.devRef .tc main_arg4) = _
  after_results_simp
  exact W2_arg4 m ρ c
set_option maxHeartbeats 4000000 in
theorem W3_arg5 (c : Dev nD) : W3 m ρ c (Proc.devRef .tc main_arg5) = (m ((c : Thread nD τ).loc main_arg5)) := by
  show StableHlo.after hostOps1 _ (Proc.devRef .tc main_arg5) = _
  after_results_simp
  exact W2_arg5 m ρ c
set_option maxHeartbeats 4000000 in
theorem W3_arg6 (c : Dev nD) : W3 m ρ c (Proc.devRef .tc main_arg6) = (m ((c : Thread nD τ).loc main_arg6)) := by
  show StableHlo.after hostOps1 _ (Proc.devRef .tc main_arg6) = _
  after_results_simp
  exact W2_arg6 m ρ c
set_option maxHeartbeats 4000000 in
theorem W3_arg7 (c : Dev nD) : W3 m ρ c (Proc.devRef .tc main_arg7) = (m ((c : Thread nD τ).loc main_arg7)) := by
  show StableHlo.after hostOps1 _ (Proc.devRef .tc main_arg7) = _
  after_results_simp
  exact W2_arg7 m ρ c

/-! ## After the first combine -/

theorem W4_r1 (c : Dev nD) : W4 m ρ c (Proc.devRef .tc main_v46) = layer1 (feat1 (m ((c : Thread nD τ).loc main_arg0)) (m ((c : Thread nD τ).loc main_arg2))) (m ((c : Thread nD τ).loc main_arg1)) (m ((c : Thread nD τ).loc main_arg3)) := by
  refine (W4_arr m ρ c 3).trans ((Cert.KernelIdeal.Hand1.arr1 (V3 m ρ) c).trans ?_)
  show Cert.Gcn.combine 100000 64 (W3 m ρ c (Proc.devRef .tc main_v41)) (W3 m ρ c (Proc.devRef .tc main_v44)) (W3 m ρ c (Proc.devRef .tc main_v45)) = _
  rw [W3_agg, W3_self, W3_bias]
  rfl
theorem W4_src (c : Dev nD) : W4 m ρ c (Proc.devRef .tc main_v1) = (srcOf (m ((c : Thread nD τ).loc main_arg1))) := (W4_of_ne m ρ c main_v1 (by decide)).trans (W3_src m ρ c)
theorem W4_dst (c : Dev nD) : W4 m ρ c (Proc.devRef .tc main_v3) = (dstOf (m ((c : Thread nD τ).loc main_arg1))) := (W4_of_ne m ρ c main_v3 (by decide)).trans (W3_dst m ρ c)
theorem W4_w (c : Dev nD) : W4 m ρ c (Proc.devRef .tc main_v25) = (edgeW (srcOf (m ((c : Thread nD τ).loc main_arg1))) (dstOf (m ((c : Thread nD τ).loc main_arg1)))) := (W4_of_ne m ρ c main_v25 (by decide)).trans (W3_w m ρ c)
theorem W4_inv (c : Dev nD) : W4 m ρ c (Proc.devRef .tc main_v27) = (invDeg (dstOf (m ((c : Thread nD τ).loc main_arg1)))) := (W4_of_ne m ρ c main_v27 (by decide)).trans (W3_inv m ρ c)
theorem W4_arg4 (c : Dev nD) : W4 m ρ c (Proc.devRef .tc main_arg4) = (m ((c : Thread nD τ).loc main_arg4)) := (W4_of_ne m ρ c main_arg4 (by decide)).trans (W3_arg4 m ρ c)
theorem W4_arg5 (c : Dev nD) : W4 m ρ c (Proc.devRef .tc main_arg5) = (m ((c : Thread nD τ).loc main_arg5)) := (W4_of_ne m ρ c main_arg5 (by decide)).trans (W3_arg5 m ρ c)
theorem W4_arg6 (c : Dev nD) : W4 m ρ c (Proc.devRef .tc main_arg6) = (m ((c : Thread nD τ).loc main_arg6)) := (W4_of_ne m ρ c main_arg6 (by decide)).trans (W3_arg6 m ρ c)
theorem W4_arg7 (c : Dev nD) : W4 m ρ c (Proc.devRef .tc main_arg7) = (m ((c : Thread nD τ).loc main_arg7)) := (W4_of_ne m ρ c main_arg7 (by decide)).trans (W3_arg7 m ρ c)

/-! ## After the second feature product -/

theorem W5_h2 (c : Dev nD) : W5 m ρ c (Proc.devRef .tc main_v47) = feat2 (layer1 (feat1 (m ((c : Thread nD τ).loc main_arg0)) (m ((c : Thread nD τ).loc main_arg2))) (m ((c : Thread nD τ).loc main_arg1)) (m ((c : Thread nD τ).loc main_arg3))) (m ((c : Thread nD τ).loc main_arg4)) := by
  refine (W5_arr m ρ c 2).trans ((Cert.KernelIdeal.Hand2.arr2 (V4 m ρ) c).trans ?_)
  show Cert.Gcn.rowsDot 100000 64 64 (W4 m ρ c (Proc.devRef .tc main_v46)) (W4 m ρ c (Proc.devRef .tc main_arg4)) = _
  rw [W4_r1, W4_arg4]
  rfl
theorem W5_src (c : Dev nD) : W5 m ρ c (Proc.devRef .tc main_v1) = (srcOf (m ((c : Thread nD τ).loc main_arg1))) := (W5_of_ne m ρ c main_v1 (by decide)).trans (W4_src m ρ c)
theorem W5_dst (c : Dev nD) : W5 m ρ c (Proc.devRef .tc main_v3) = (dstOf (m ((c : Thread nD τ).loc main_arg1))) := (W5_of_ne m ρ c main_v3 (by decide)).trans (W4_dst m ρ c)
theorem W5_w (c : Dev nD) : W5 m ρ c (Proc.devRef .tc main_v25) = (edgeW (srcOf (m ((c : Thread nD τ).loc main_arg1))) (dstOf (m ((c : Thread nD τ).loc main_arg1)))) := (W5_of_ne m ρ c main_v25 (by decide)).trans (W4_w m ρ c)
theorem W5_inv (c : Dev nD) : W5 m ρ c (Proc.devRef .tc main_v27) = (invDeg (dstOf (m ((c : Thread nD τ).loc main_arg1)))) := (W5_of_ne m ρ c main_v27 (by decide)).trans (W4_inv m ρ c)
theorem W5_arg5 (c : Dev nD) : W5 m ρ c (Proc.devRef .tc main_arg5) = (m ((c : Thread nD τ).loc main_arg5)) := (W5_of_ne m ρ c main_arg5 (by decide)).trans (W4_arg5 m ρ c)
theorem W5_arg6 (c : Dev nD) : W5 m ρ c (Proc.devRef .tc main_arg6) = (m ((c : Thread nD τ).loc main_arg6)) := (W5_of_ne m ρ c main_arg6 (by decide)).trans (W4_arg6 m ρ c)
theorem W5_arg7 (c : Dev nD) : W5 m ρ c (Proc.devRef .tc main_arg7) = (m ((c : Thread nD τ).loc main_arg7)) := (W5_of_ne m ρ c main_arg7 (by decide)).trans (W4_arg7 m ρ c)

/-! ## Before the combine-and-head -/

set_option maxHeartbeats 4000000 in
theorem W6_agg (c : Dev nD) : W6 m ρ c (Proc.devRef .tc main_v60) = aggOf (feat2 (layer1 (feat1 (m ((c : Thread nD τ).loc main_arg0)) (m ((c : Thread nD τ).loc main_arg2))) (m ((c : Thread nD τ).loc main_arg1)) (m ((c : Thread nD τ).loc main_arg3))) (m ((c : Thread nD τ).loc main_arg4))) (srcOf (m ((c : Thread nD τ).loc main_arg1))) (dstOf (m ((c : Thread nD τ).loc main_arg1))) (edgeW (srcOf (m ((c : Thread nD τ).loc main_arg1))) (dstOf (m ((c : Thread nD τ).loc main_arg1)))) := by
  show StableHlo.after hostOps3 _ (Proc.devRef .tc main_v60) = _
  after_results_simp
  rw [W5_h2, W5_src, W5_dst, W5_w]
  rfl
set_option maxHeartbeats 4000000 in
theorem W6_self (c : Dev nD) : W6 m ρ c (Proc.devRef .tc main_v63) = selfOf (feat2 (layer1 (feat1 (m ((c : Thread nD τ).loc main_arg0)) (m ((c : Thread nD τ).loc main_arg2))) (m ((c : Thread nD τ).loc main_arg1)) (m ((c : Thread nD τ).loc main_arg3))) (m ((c : Thread nD τ).loc main_arg4))) (invDeg (dstOf (m ((c : Thread nD τ).loc main_arg1)))) := by
  show StableHlo.after hostOps3 _ (Proc.devRef .tc main_v63) = _
  after_results_simp
  rw [W5_h2, W5_inv]
  rfl
set_option maxHeartbeats 4000000 in
theorem W6_bias (c : Dev nD) : W6 m ρ c (Proc.devRef .tc main_v66) = shapeCast S1x64 (m ((c : Thread nD τ).loc main_arg5)) shapeCasts_S64_S1x64 := by
  show StableHlo.after hostOps3 _ (Proc.devRef .tc main_v66) = _
  after_results_simp
  rw [W5_arg5]
  rfl
set_option maxHeartbeats 4000000 in
theorem W6_headRow (c : Dev nD) : W6 m ρ c (Proc.devRef .tc main_v64) = shapeCast S1x64 (m ((c : Thread nD τ).loc main_arg6)) shapeCasts_S64x1_S1x64 := by
  show StableHlo.after hostOps3 _ (Proc.devRef .tc main_v64) = _
  after_results_simp
  rw [W5_arg6]
  rfl
set_option maxHeartbeats 4000000 in
theorem W6_headBias (c : Dev nD) : W6 m ρ c (Proc.devRef .tc main_v65) = shapeCast S1x1 (m ((c : Thread nD τ).loc main_arg7)) shapeCasts_S1_S1x1 := by
  show StableHlo.after hostOps3 _ (Proc.devRef .tc main_v65) = _
  after_results_simp
  rw [W5_arg7]
  rfl

/-! ## After the combine-and-head, and the closing reshape -/

theorem W7_head (c : Dev nD) : W7 m ρ c (Proc.devRef .tc main_v67)
    = Cert.Gcn.headOf 100000 64 (aggOf (feat2 (layer1 (feat1 (m ((c : Thread nD τ).loc main_arg0)) (m ((c : Thread nD τ).loc main_arg2))) (m ((c : Thread nD τ).loc main_arg1)) (m ((c : Thread nD τ).loc main_arg3))) (m ((c : Thread nD τ).loc main_arg4))) (srcOf (m ((c : Thread nD τ).loc main_arg1))) (dstOf (m ((c : Thread nD τ).loc main_arg1))) (edgeW (srcOf (m ((c : Thread nD τ).loc main_arg1))) (dstOf (m ((c : Thread nD τ).loc main_arg1))))) (selfOf (feat2 (layer1 (feat1 (m ((c : Thread nD τ).loc main_arg0)) (m ((c : Thread nD τ).loc main_arg2))) (m ((c : Thread nD τ).loc main_arg1)) (m ((c : Thread nD τ).loc main_arg3))) (m ((c : Thread nD τ).loc main_arg4))) (invDeg (dstOf (m ((c : Thread nD τ).loc main_arg1)))))
        (shapeCast S1x64 (m ((c : Thread nD τ).loc main_arg5)) shapeCasts_S64_S1x64) (shapeCast S1x64 (m ((c : Thread nD τ).loc main_arg6)) shapeCasts_S64x1_S1x64) (shapeCast S1x1 (m ((c : Thread nD τ).loc main_arg7)) shapeCasts_S1_S1x1) := by
  refine (W7_arr m ρ c 5).trans ((Cert.KernelIdeal.Hand3.arr3 (V6 m ρ) c).trans ?_)
  show Cert.Gcn.headOf 100000 64 (W6 m ρ c (Proc.devRef .tc main_v60)) (W6 m ρ c (Proc.devRef .tc main_v63)) (W6 m ρ c (Proc.devRef .tc main_v66)) (W6 m ρ c (Proc.devRef .tc main_v64)) (W6 m ρ c (Proc.devRef .tc main_v65)) = _
  rw [W6_agg, W6_self, W6_bias, W6_headRow, W6_headBias]

set_option maxHeartbeats 4000000 in
/-- The result buffer at the last boundary is `result` of the second layer's features and the argument arrays. -/
theorem W8_result (c : Dev nD) : W8 m ρ c (Proc.devRef .tc main_v68) = result (feat2 (layer1 (feat1 (m ((c : Thread nD τ).loc main_arg0)) (m ((c : Thread nD τ).loc main_arg2))) (m ((c : Thread nD τ).loc main_arg1)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7)) := by
  show StableHlo.after hostOps4 _ (Proc.devRef .tc main_v68) = _
  after_results_simp
  rw [W7_head]
  rfl

end Cert.KernelIdeal.Fold

end
-- ==== Proof.RefTerm.lean ====
/-
  The reference's run and its stages, as generated; the bridge to the kernel's value is stated over them.
-/
import proofs.«168553_j28166395527551_1_alg».proof.Proof.Gen.ReferenceIdeal.Run
import proofs.«168553_j28166395527551_1_alg».proof.Proof.Gen.ReferenceIdeal.Read
-- ==== Proof.Bridge.lean ====
/-
  The reference computes the same function of the arguments as the kernel.

  Its three products are the rows-times-matrix sums; its bias-add-and-relu of a layer is `combine` (the bias, spread over
  the nodes by two broadcasts, read at a feature is the bias vector's entry, as is the kernel's reshaped bias row); its final
  product with the [64, 1] weights plus the broadcast bias is `headOf` (the weight column read at `(k, 0)` is the kernel's
  reshaped weight row at `(0, k)`). Between them both programs apply the same gathers, scatter-adds and scalings to the
  same arrays, so once the dense stages agree the two results are one term.
-/
import proofs.«168553_j28166395527551_1_alg».proof.Proof.RefTerm
import proofs.«168553_j28166395527551_1_alg».proof.Proof.KFold
import Idealize.ShloMosaic.Lib.Pipeline.Value
import Idealize.ShloMosaic.Lib.ValueIdx
import Idealize.ShloMosaic.Lib.ValueLayout
import Idealize.ShloMosaic.Lib.IdealHost

set_option maxRecDepth 16384

noncomputable section

open Idealize.ShloMosaic Idealize.ShloMosaic.TcCoe Idealize.SL.Sem Idealize.ShloMosaic.ValueIdx
open scoped BigOperators

namespace Cert.Bridge

open Cert.ReferenceIdeal Cert.ReferenceIdeal.Gen
open Cert.KernelIdeal.Fold (aggOf selfOf srcOf dstOf edgeW invDeg feat1 feat2 layer1 result)

/-- The reference's layer output from its two terms and the bias vector: the sum, the bias spread over the nodes, the cut
    at zero. -/
def refLayer (a s : FVec Ideal S100000x64 .f32) (b : FVec Ideal S64 .f32) : FVec Ideal S100000x64 .f32 :=
  maximumf (addf (addf a s) (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The bias vector spread over the nodes, read at node `p`, feature `q`: the vector's entry `q`. -/
theorem biasRows_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  rw [broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-- The reference's layer output at an entry. -/
theorem refLayer_apply (a s : FVec Ideal S100000x64 .f32) (b : FVec Ideal S64 .f32) (p : Fin 100000) (q : Fin 64) :
    refLayer a s b (ix2 p q) = Cert.Gcn.relu3 (a (ix2 p q)) (s (ix2 p q)) (b (ix1 q)) := by
  unfold refLayer
  rw [maximumf_apply, addf_apply, addf_apply, biasRows_apply, broadcastInDim_scalar_apply, constant_apply, Ideal.ofBits_zero_f32]
  rfl

/-- The reference's layer output is `combine` with the bias as the kernel passes it, reshaped to a row. -/
theorem refLayer_eq (a s : FVec Ideal S100000x64 .f32) (b : FVec Ideal S64 .f32) :
    refLayer a s b = Cert.Gcn.combine 100000 64 a s (shapeCast Cert.KernelIdeal.S1x64 b Cert.KernelIdeal.Gen.shapeCasts_S64_S1x64) := by
  funext j
  obtain ⟨p, q, rfl⟩ : ∃ (p : Fin 100000) (q : Fin 64), j = ix2 p q := ⟨j 0, j 1, eq_ix2 j⟩
  rw [refLayer_apply]
  unfold Cert.Gcn.combine
  show _ = Cert.Gcn.relu3 (a (ix2 p q)) (s (ix2 p q)) (shapeCast Cert.KernelIdeal.S1x64 b Cert.KernelIdeal.Gen.shapeCasts_S64_S1x64 (ix2 (0 : Fin 1) q))
  rw [shapeCast_a_1a_apply]

/-- The first layer's product on the host is the rows-times-matrix sum. -/
theorem dot1_eq (x : FVec Ideal S100000x128 .f32) (w : FVec Ideal S128x64 .f32) :
    Host.dotGeneral (F := Ideal) dot_S100000x128_S128x64_S100000x64_1_0_0_1_n_n none x w = feat1 x w := by
  funext j
  exact PlainDot.dotGeneral_apply_any 100000 128 64 none _ x w j

/-- The second layer's product on the host is the rows-times-matrix sum. -/
theorem dot2_eq (r : FVec Ideal S100000x64 .f32) (w : FVec Ideal S64x64 .f32) :
    Host.dotGeneral (F := Ideal) dot_S100000x64_S64x64_S100000x64_1_0_0_1_n_n none r w = feat2 r w := by
  funext j
  exact PlainDot.dotGeneral_apply_any 100000 64 64 none _ r w j

/-- The [64, 1] weight column reshaped to a row, read at `(0, k)`: the column's entry `(k, 0)`. -/
theorem headRow_apply (wl : FVec Ideal S64x1 .f32) (k : Fin 64) :
    shapeCast Cert.KernelIdeal.S1x64 wl Cert.KernelIdeal.Gen.shapeCasts_S64x1_S1x64 (ix2 (0 : Fin 1) k) = wl (ix2 k (0 : Fin 1)) :=
  shapeCast_apply wl _ _ _ (by
    rw [Shape.rowMajor_val_two, Shape.rowMajor_val_two]
    show k.val * 1 + 0 = 0 * 64 + k.val
    omega)

/-- The one-entry bias, spread over the nodes by the reference or reshaped to [1, 1] by the kernel, reads its one entry. -/
theorem headBias_apply (bl : FVec Ideal S1 .f32) (p : Fin 100000) :
    broadcastInDim S100000x1 ![0, 1] bcast_S1x1_S100000x1_0_1 (broadcastInDim S1x1 ![1] bcast_S1_S1x1_1 bl) (ix2 p (0 : Fin 1))
      = shapeCast Cert.KernelIdeal.S1x1 bl Cert.KernelIdeal.Gen.shapeCasts_S1_S1x1 (ix2 (0 : Fin 1) (0 : Fin 1)) := by
  rw [broadcastInDim_apply _ bcast_S1x1_S100000x1_0_1 _ (ix2 p (0 : Fin 1)) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else 0; rw [if_pos rfl])]
  rw [broadcastInDim_apply _ bcast_S1_S1x1_1 bl (ix2 (0 : Fin 1) (0 : Fin 1)) (ix1 (0 : Fin 1)) (fun a => match a with
    | ⟨0, _⟩ => by show 0 = if (1 : Nat) = 1 then 0 else 0; rw [if_pos rfl])]
  rw [shapeCast_a_1a_apply]

/-- The reference's last product plus its bias is `headOf` with the rows and the bias as the kernel passes them. -/
theorem refHead_eq (a s : FVec Ideal S100000x64 .f32) (b2 : FVec Ideal S64 .f32) (wl : FVec Ideal S64x1 .f32) (bl : FVec Ideal S1 .f32) :
    addf (Host.dotGeneral (F := Ideal) dot_S100000x64_S64x1_S100000x1_1_0_0_1_n_n none (refLayer a s b2) wl)
      (broadcastInDim S100000x1 ![0, 1] bcast_S1x1_S100000x1_0_1 (broadcastInDim S1x1 ![1] bcast_S1_S1x1_1 bl))
    = Cert.Gcn.headOf 100000 64 a s (shapeCast Cert.KernelIdeal.S1x64 b2 Cert.KernelIdeal.Gen.shapeCasts_S64_S1x64)
        (shapeCast Cert.KernelIdeal.S1x64 wl Cert.KernelIdeal.Gen.shapeCasts_S64x1_S1x64)
        (shapeCast Cert.KernelIdeal.S1x1 bl Cert.KernelIdeal.Gen.shapeCasts_S1_S1x1) := by
  funext j
  obtain ⟨p, u, rfl⟩ : ∃ (p : Fin 100000) (u : Fin 1), j = ix2 p u := ⟨j 0, j 1, eq_ix2 j⟩
  obtain rfl : u = 0 := Subsingleton.elim _ _
  rw [addf_apply]
  unfold Cert.Gcn.headOf
  refine congrArg₂ (· + ·) ?_ (headBias_apply bl p)
  refine (PlainDot.dotGeneral_apply_any 100000 64 1 none _ (refLayer a s b2) wl (ix2 p (0 : Fin 1))).trans ?_
  refine Finset.sum_congr rfl fun k _ => ?_
  show refLayer a s b2 (ix2 p k) * wl (ix2 k (0 : Fin 1))
    = Cert.Gcn.relu3 (a (ix2 p k)) (s (ix2 p k)) (shapeCast Cert.KernelIdeal.S1x64 b2 Cert.KernelIdeal.Gen.shapeCasts_S64_S1x64 (ix2 (0 : Fin 1) k))
      * shapeCast Cert.KernelIdeal.S1x64 wl Cert.KernelIdeal.Gen.shapeCasts_S64x1_S1x64 (ix2 (0 : Fin 1) k)
  rw [refLayer_apply, shapeCast_a_1a_apply, headRow_apply]

variable (m' : (ℓ : Loc nD τ sig) → Buf (Elt Ideal) ℓ)

/-- The reference's result term, layer by layer: its operations between the dense stages are the shared host functions. -/
theorem res_layers (c : Dev nD) :
    Value.res_main_v100 m' c
      = shapeCast S100000 (addf (Host.dotGeneral (F := Ideal) (φ₁ := .f32) (φ₂ := .f32) dot_S100000x64_S64x1_S100000x1_1_0_0_1_n_n none (refLayer (aggOf (Host.dotGeneral (F := Ideal) (φ₁ := .f32) (φ₂ := .f32) dot_S100000x64_S64x64_S100000x64_1_0_0_1_n_n none (refLayer (aggOf (Host.dotGeneral (F := Ideal) (φ₁ := .f32) (φ₂ := .f32) dot_S100000x128_S128x64_S100000x64_1_0_0_1_n_n none (m' ((c.tc : Thread nD τ).loc main_arg0)) (m' ((c.tc : Thread nD τ).loc main_arg2))) (srcOf (m' ((c.tc : Thread nD τ).loc main_arg1))) (dstOf (m' ((c.tc : Thread nD τ).loc main_arg1))) (edgeW (srcOf (m' ((c.tc : Thread nD τ).loc main_arg1))) (dstOf (m' ((c.tc : Thread nD τ).loc main_arg1))))) (selfOf (Host.dotGeneral (F := Ideal) (φ₁ := .f32) (φ₂ := .f32) dot_S100000x128_S128x64_S100000x64_1_0_0_1_n_n none (m' ((c.tc : Thread nD τ).loc main_arg0)) (m' ((c.tc : Thread nD τ).loc main_arg2))) (invDeg (dstOf (m' ((c.tc : Thread nD τ).loc main_arg1))))) (m' ((c.tc : Thread nD τ).loc main_arg3))) (m' ((c.tc : Thread nD τ).loc main_arg4))) (srcOf (m' ((c.tc : Thread nD τ).loc main_arg1))) (dstOf (m' ((c.tc : Thread nD τ).loc main_arg1))) (edgeW (srcOf (m' ((c.tc : Thread nD τ).loc main_arg1))) (dstOf (m' ((c.tc : Thread nD τ).loc main_arg1))))) (selfOf (Host.dotGeneral (F := Ideal) (φ₁ := .f32) (φ₂ := .f32) dot_S100000x64_S64x64_S100000x64_1_0_0_1_n_n none (refLayer (aggOf (Host.dotGeneral (F := Ideal) (φ₁ := .f32) (φ₂ := .f32) dot_S100000x128_S128x64_S100000x64_1_0_0_1_n_n none (m' ((c.tc : Thread nD τ).loc main_arg0)) (m' ((c.tc : Thread nD τ).loc main_arg2))) (srcOf (m' ((c.tc : Thread nD τ).loc main_arg1))) (dstOf (m' ((c.tc : Thread nD τ).loc main_arg1))) (edgeW (srcOf (m' ((c.tc : Thread nD τ).loc main_arg1))) (dstOf (m' ((c.tc : Thread nD τ).loc main_arg1))))) (selfOf (Host.dotGeneral (F := Ideal) (φ₁ := .f32) (φ₂ := .f32) dot_S100000x128_S128x64_S100000x64_1_0_0_1_n_n none (m' ((c.tc : Thread nD τ).loc main_arg0)) (m' ((c.tc : Thread nD τ).loc main_arg2))) (invDeg (dstOf (m' ((c.tc : Thread nD τ).loc main_arg1))))) (m' ((c.tc : Thread nD τ).loc main_arg3))) (m' ((c.tc : Thread nD τ).loc main_arg4))) (invDeg (dstOf (m' ((c.tc : Thread nD τ).loc main_arg1))))) (m' ((c.tc : Thread nD τ).loc main_arg5))) (m' ((c.tc : Thread nD τ).loc main_arg6)))
          (broadcastInDim S100000x1 ![0, 1] bcast_S1x1_S100000x1_0_1 (broadcastInDim S1x1 ![1] bcast_S1_S1x1_1 (m' ((c.tc : Thread nD τ).loc main_arg7)))))
        shapeCasts_S100000x1_S100000 := by
  unfold Value.res_main_v100 refLayer
  rfl

/-- The reference's result is `result` of the same functions of its arguments. -/
theorem res_eq (c : Dev nD) :
    Value.res_main_v100 m' c
      = result (feat2 (layer1 (feat1 (m' ((c.tc : Thread nD τ).loc main_arg0)) (m' ((c.tc : Thread nD τ).loc main_arg2))) (m' ((c.tc : Thread nD τ).loc main_arg1)) (m' ((c.tc : Thread nD τ).loc main_arg3))) (m' ((c.tc : Thread nD τ).loc main_arg4))) (m' ((c.tc : Thread nD τ).loc main_arg1)) (m' ((c.tc : Thread nD τ).loc main_arg5)) (m' ((c.tc : Thread nD τ).loc main_arg6)) (m' ((c.tc : Thread nD τ).loc main_arg7)) := by
  rw [res_layers, refHead_eq, dot2_eq, refLayer_eq, dot1_eq]
  rfl

end Cert.Bridge

end
-- ==== Proof.lean ====
/-
  A two-layer graph convolution with a linear head, on 100000 nodes and 1600000 edges: the kernel against its jnp reference,
  over the extended reals.

  Both programs compute, from the edge list, the degrees with a self-loop, the edge weights `dinv[src] * dinv[dst]` and the
  inverse degrees, by the same gathers and scatter-adds. Each layer is then: a feature product `h = x W`; the neighbours'
  term (the rows of `h` gathered at the sources, weighted, scatter-added onto the destinations) plus the self-loop term
  `h / deg`, plus the bias, cut off at zero. The kernel runs the two feature products, the first layer's combine step and
  the second layer's combine step fused with the head, each as a grid of 25 row blocks of 4000 nodes; the reference runs them
  as whole-array operations. At the ideal instance a narrowing to bf16 is the identity, a block's product into a zero
  accumulator is the rows of the whole product, and the head's row sums `sum_k r (p, k) * wl k` are the entries of the product
  with the [64, 1] weights: so the four regions' arrays are `rowsDot`, `combine`, `rowsDot` and `headOf` of what they read
  (the four region modules), the kernel's result buffer is `result` of the arguments (the walk through the boundaries),
  and the reference's result is the same term (the bridge). No law used here needs a finite input: sums are only regrouped
  by index, never distributed over.

  The frames of the two kernel programs are the generated certificates; the reference's frame is its generated run with the
  result dropped; the idealization rewrote nothing.
-/
import proofs.«168553_j28166395527551_1_alg».proof.Defs
import proofs.«168553_j28166395527551_1_alg».proof.Proof.Gen.Kernel
import proofs.«168553_j28166395527551_1_alg».proof.Proof.Gen.Kernel.Skeleton
import proofs.«168553_j28166395527551_1_alg».proof.Proof.Gen.Kernel.Launch
import proofs.«168553_j28166395527551_1_alg».proof.Proof.Gen.Kernel.Points
import proofs.«168553_j28166395527551_1_alg».proof.Proof.Gen.Kernel.Frame
import proofs.«168553_j28166395527551_1_alg».proof.Proof.Gen.KernelIdeal
import proofs.«168553_j28166395527551_1_alg».proof.Proof.Gen.KernelIdeal.Skeleton
import proofs.«168553_j28166395527551_1_alg».proof.Proof.Gen.KernelIdeal.Launch
import proofs.«168553_j28166395527551_1_alg».proof.Proof.Gen.KernelIdeal.Points
import proofs.«168553_j28166395527551_1_alg».proof.Proof.Gen.KernelIdeal.Frame
import proofs.«168553_j28166395527551_1_alg».proof.Proof.Gen.ReferenceIdeal
import proofs.«168553_j28166395527551_1_alg».proof.Proof.Gen.Pre_finite_inputs
import proofs.«168553_j28166395527551_1_alg».proof.Proof.KRun
import proofs.«168553_j28166395527551_1_alg».proof.Proof.KFold
import proofs.«168553_j28166395527551_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with `result` of the second layer's features and the
    arguments: the kernel by its run and the walk through its boundaries, the reference by its run and the bridge. -/
theorem algebraic : Cert.algebraic_KernelIdeal_ReferenceIdeal := by
  intro m ρ m' ρ' _ hagree
  refine ⟨fun c => Cert.KernelIdeal.Fold.result
      (Cert.KernelIdeal.Fold.feat2 (Cert.KernelIdeal.Fold.layer1 (Cert.KernelIdeal.Fold.feat1 (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.W8_result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.Bridge.res_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
